-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x1024 : Shape := ⟨3, ![8, 4096, 1024]⟩
abbrev S8x1024 : Shape := ⟨2, ![8, 1024]⟩
abbrev S8 : Shape := ⟨1, ![8]⟩
abbrev S1024x8 : Shape := ⟨2, ![1024, 8]⟩
abbrev S1024 : Shape := ⟨1, ![1024]⟩
abbrev S_ : Shape := ⟨0, ![]⟩

class Facts : Prop where
  bcast_S_S8x4096x1024 : S_.BroadcastsInDim S8x4096x1024 (![] : Fin 0 → Fin S8x4096x1024.rank)
  reducesTo_S8x4096x1024_S_d0_1_2 : S8x4096x1024.ReducesTo [0, 1, 2] S_
  h_S_ : 0 < S_.numel
  bcast_S_S8x1024 : S_.BroadcastsInDim S8x1024 (![] : Fin 0 → Fin S8x1024.rank)
  reducesTo_S8x1024_S_d0_1 : S8x1024.ReducesTo [0, 1] S_
  bcast_S_S8 : S_.BroadcastsInDim S8 (![] : Fin 0 → Fin S8.rank)
  reducesTo_S8_S_d0 : S8.ReducesTo [0] S_
  bcast_S_S1024x8 : S_.BroadcastsInDim S1024x8 (![] : Fin 0 → Fin S1024x8.rank)
  reducesTo_S1024x8_S_d0_1 : S1024x8.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024x8 .f32) (main_arg5 : FVec F S1024 .f32) (main_v13 : IVec S_ 1) (main_v16 : IVec S8 1) : IVec S_ 1 :=
  let main_c_5 : IVec S_ 1 := constantI S_ 1 1#1
  let main_v17 : IVec S_ 1 := (fun x v => Host.reduce IntOp.andi x v reducesTo_S8_S_d0 h_S_) main_v16 main_c_5
  let main_v18 : IVec S_ 1 := andi main_v13 main_v17
  let main_v19 : FVec F S1024x8 .f32 := Host.absf main_arg4
  let main_cst_6 : FVec F S_ .f32 := constant S_ .f32 0x7F800000#32
  let main_v20 : FVec F S1024x8 .f32 := broadcastInDim S1024x8 ![] bcast_S_S1024x8 main_cst_6
  let main_v21 : IVec S1024x8 1 := cmpf .olt main_v19 main_v20
  let main_c_7 : IVec S_ 1 := constantI S_ 1 1#1
  let main_v22 : IVec S_ 1 := (fun x v => Host.reduce IntOp.andi x v reducesTo_S1024x8_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  main_v28

def fn {F : FTy → Type} [FloatOps F] (main_arg0 : FVec F S8x4096x1024 .f32) (main_arg1 : FVec F S8x1024 .f32) (main_arg2 : FVec F S8 .f32) (main_arg3 : FVec F S8 .f32) (main_arg4 : FVec F S1024x8 .f32) (main_arg5 : FVec F S1024 .f32) : IVec S_ 1 :=
  let main_v0 : FVec F S8x4096x1024 .f32 := Host.absf main_arg0
  let main_cst : FVec F S_ .f32 := constant S_ .f32 0x7F800000#32
  let main_v1 : FVec F S8x4096x1024 .f32 := broadcastInDim S8x4096x1024 ![] bcast_S_S8x4096x1024 main_cst
  let main_v2 : IVec S8x4096x1024 1 := cmpf .olt main_v0 main_v1
  let main_c : IVec S_ 1 := constantI S_ 1 1#1
  let main_v3 : IVec S_ 1 := (fun x v => Host.reduce IntOp.andi x v reducesTo_S8x4096x1024_S_d0_1_2 h_S_) main_v2 main_c
  let main_v4 : FVec F S8x1024 .f32 := Host.absf main_arg1
  let main_cst_0 : FVec F S_ .f32 := constant S_ .f32 0x7F800000#32
  let main_v5 : FVec F S8x1024 .f32 := broadcastInDim S8x1024 ![] bcast_S_S8x1024 main_cst_0
  let main_v6 : IVec S8x1024 1 := cmpf .olt main_v4 main_v5
  let main_c_1 : IVec S_ 1 := constantI S_ 1 1#1
  let main_v7 : IVec S_ 1 := (fun x v => Host.reduce IntOp.andi x v reducesTo_S8x1024_S_d0_1 h_S_) main_v6 main_c_1
  let main_v8 : IVec S_ 1 := andi main_v3 main_v7
  let main_v9 : FVec F S8 .f32 := Host.absf main_arg2
  let main_cst_2 : FVec F S_ .f32 := constant S_ .f32 0x7F800000#32
  let main_v10 : FVec F S8 .f32 := broadcastInDim S8 ![] bcast_S_S8 main_cst_2
  let main_v11 : IVec S8 1 := cmpf .olt main_v9 main_v10
  let main_c_3 : IVec S_ 1 := constantI S_ 1 1#1
  let main_v12 : IVec S_ 1 := (fun x v => Host.reduce IntOp.andi x v reducesTo_S8_S_d0 h_S_) main_v11 main_c_3
  let main_v13 : IVec S_ 1 := andi main_v8 main_v12
  let main_v14 : FVec F S8 .f32 := Host.absf main_arg3
  let main_cst_4 : FVec F S_ .f32 := constant S_ .f32 0x7F800000#32
  let main_v15 : FVec F S8 .f32 := broadcastInDim S8 ![] bcast_S_S8 main_cst_4
  let main_v16 : IVec S8 1 := cmpf .olt main_v14 main_v15
  fn_part1 (F := F) main_arg4 main_arg5 main_v13 main_v16
-- ==== Kernel.lean ====
abbrev S8x4096x1024 : Shape := ⟨3, ![8, 4096, 1024]⟩
abbrev S8x1024 : Shape := ⟨2, ![8, 1024]⟩
abbrev S8 : Shape := ⟨1, ![8]⟩
abbrev S1024x8 : Shape := ⟨2, ![1024, 8]⟩
abbrev S1024 : Shape := ⟨1, ![1024]⟩
abbrev S32768x1024 : Shape := ⟨2, ![32768, 1024]⟩
abbrev S2048x1024 : Shape := ⟨2, ![2048, 1024]⟩
abbrev S2048x8 : Shape := ⟨2, ![2048, 8]⟩
abbrev S1x8 : Shape := ⟨2, ![1, 8]⟩
abbrev S1x1024 : Shape := ⟨2, ![1, 1024]⟩

abbrev nBuf : Space → Nat
  | .hbm => 11
  | .vmem => 9
  | .smem => 0
  | _ => 0

abbrev bufTy : (tb : Table) → Fin (tcTables nBuf tb) → BufTy
  | .hbm, ⟨0, _⟩ => ⟨S8x4096x1024, .f32⟩
  | .hbm, ⟨1, _⟩ => ⟨S8x1024, .f32⟩
  | .hbm, ⟨2, _⟩ => ⟨S8, .f32⟩
  | .hbm, ⟨3, _⟩ => ⟨S8, .f32⟩
  | .hbm, ⟨4, _⟩ => ⟨S1024x8, .f32⟩
  | .hbm, ⟨5, _⟩ => ⟨S1024, .f32⟩
  | .hbm, ⟨6, _⟩ => ⟨S32768x1024, .f32⟩
  | .hbm, ⟨7, _⟩ => ⟨S1024x8, .f32⟩
  | .hbm, ⟨8, _⟩ => ⟨S8x1024, .f32⟩
  | .hbm, ⟨9, _⟩ => ⟨S32768x1024, .f32⟩
  | .hbm, ⟨10, _⟩ => ⟨S8x4096x1024, .f32⟩
  | .local _ .vmem, ⟨0, _⟩ => ⟨S2048x1024, .f32⟩
  | .local _ .vmem, ⟨1, _⟩ => ⟨S2048x1024, .f32⟩
  | .local _ .vmem, ⟨2, _⟩ => ⟨S1024x8, .f32⟩
  | .local _ .vmem, ⟨3, _⟩ => ⟨S8, .f32⟩
  | .local _ .vmem, ⟨4, _⟩ => ⟨S8, .f32⟩
  | .local _ .vmem, ⟨5, _⟩ => ⟨S8x1024, .f32⟩
  | .local _ .vmem, ⟨6, _⟩ => ⟨S1024, .f32⟩
  | .local _ .vmem, ⟨7, _⟩ => ⟨S2048x1024, .f32⟩
  | .local _ .vmem, ⟨8, _⟩ => ⟨S2048x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2048x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  shapeCasts_S8x4096x1024_S32768x1024 : S8x4096x1024.ShapeCasts S32768x1024
  transposes_S8x1024_S1024x8_1_0 : S8x1024.Transposes [1, 0] S1024x8
  transposes_S1024x8_S8x1024_1_0 : S1024x8.Transposes [1, 0] S8x1024
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S1024x8_S1024x8_0_0 : ∀ a, (![0, 0] : Fin 2 → Nat) a + S1024x8.size a ≤ S1024x8.size a
  h_S1024x8 : 0 < S1024x8.numel
  shapeCasts_S1024x8_S1024x8 : S1024x8.ShapeCasts S1024x8
  inb_S8_S8_0 : ∀ a, (![0] : Fin 1 → Nat) a + S8.size a ≤ S8.size a
  h_S8 : 0 < S8.numel
  shapeCasts_S8_S1x8 : S8.ShapeCasts S1x8
  broadcasts_S1x8_S2048x8 : S1x8.Broadcasts S2048x8
  inb_S8x1024_S8x1024_0_0 : ∀ a, (![0, 0] : Fin 2 → Nat) a + S8x1024.size a ≤ S8x1024.size a
  h_S8x1024 : 0 < S8x1024.numel
  shapeCasts_S8x1024_S8x1024 : S8x1024.ShapeCasts S8x1024
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S2048x1024 : S1x1024.Broadcasts S2048x1024
  shapeCasts_S32768x1024_S8x4096x1024 : S32768x1024.ShapeCasts S8x4096x1024
  dot_S2048x1024_S1024x8_S2048x8_1_0_0_1_n_n_wf : DotDims.WF S2048x1024 S1024x8 S2048x8 [1] [0] [0] [1] [] []
  dot_S2048x8_S8x1024_S2048x1024_1_0_0_1_n_n_wf : DotDims.WF S2048x8 S8x1024 S2048x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S32768x1024.size a
  hwx0_0 : ∀ i : grid0.Coords, EltTy.bits .f32 = 32 ∨ (Rect.block (s := S32768x1024) S2048x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x8.size a ≤ S1024x8.size a
  hwx0_1 : ∀ i : grid0.Coords, EltTy.bits .f32 = 32 ∨ (Rect.block (s := S1024x8) S1024x8.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8.size a ≤ S8.size a
  hwx0_2 : ∀ i : grid0.Coords, EltTy.bits .f32 = 32 ∨ (Rect.block (s := S8) S8.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S8.size a ≤ S8.size a
  hwx0_3 : ∀ i : grid0.Coords, EltTy.bits .f32 = 32 ∨ (Rect.block (s := S8) S8.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S8x1024.size a ≤ S8x1024.size a
  hwx0_4 : ∀ i : grid0.Coords, EltTy.bits .f32 = 32 ∨ (Rect.block (s := S8x1024) S8x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024.size a ≤ S1024.size a
  hwx0_5 : ∀ i : grid0.Coords, EltTy.bits .f32 = 32 ∨ (Rect.block (s := S1024) S1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2048x1024.size a ≤ S32768x1024.size a
  hwx0_6 : ∀ i : grid0.Coords, EltTy.bits .f32 = 32 ∨ (Rect.block (s := S32768x1024) S2048x1024.size (cc0_transform_6 i) (hinb0_6 i)).WholeWords (EltTy.packing .f32)

variable [Facts₀]

def dot_S2048x1024_S1024x8_S2048x8_1_0_0_1_n_n : DotDims S2048x1024 S1024x8 S2048x8 where
  lhsContracting := [1]
  rhsContracting := [0]
  lhsNonContracting := [0]
  rhsNonContracting := [1]
  lhsBatch := []
  rhsBatch := []
  wf := dot_S2048x1024_S1024x8_S2048x8_1_0_0_1_n_n_wf
def dot_S2048x8_S8x1024_S2048x1024_1_0_0_1_n_n : DotDims S2048x8 S8x1024 S2048x1024 where
  lhsContracting := [1]
  rhsContracting := [0]
  lhsNonContracting := [0]
  rhsNonContracting := [1]
  lhsBatch := []
  rhsBatch := []
  wf := dot_S2048x8_S8x1024_S2048x1024_1_0_0_1_n_n_wf

abbrev win0_0 : Pipeline.Window sig grid0 :=
  Pipeline.Window.ofSpec (Memref.whole main_v0) S2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x8.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S8.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S8.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S8x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3) S2048x1024.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S8x4096x1024 : Shape := ⟨3, ![8, 4096, 1024]⟩
abbrev S8x1024 : Shape := ⟨2, ![8, 1024]⟩
abbrev S8 : Shape := ⟨1, ![8]⟩
abbrev S1024x8 : Shape := ⟨2, ![1024, 8]⟩
abbrev S1024 : Shape := ⟨1, ![1024]⟩
abbrev S8x4096x8 : Shape := ⟨3, ![8, 4096, 8]⟩
abbrev S1x1x8 : Shape := ⟨3, ![1, 1, 8]⟩
abbrev S_ : Shape := ⟨0, ![]⟩
abbrev S1x1x1024 : Shape := ⟨3, ![1, 1, 1024]⟩

abbrev nBuf : Space → Nat
  | .hbm => 21
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x1024, .f32⟩
  | .hbm, ⟨2, _⟩ => ⟨S8, .f32⟩
  | .hbm, ⟨3, _⟩ => ⟨S8, .f32⟩
  | .hbm, ⟨4, _⟩ => ⟨S1024x8, .f32⟩
  | .hbm, ⟨5, _⟩ => ⟨S1024, .f32⟩
  | .hbm, ⟨6, _⟩ => ⟨S8x4096x8, .f32⟩
  | .hbm, ⟨7, _⟩ => ⟨S1x1x8, .f32⟩
  | .hbm, ⟨8, _⟩ => ⟨S8x4096x8, .f32⟩
  | .hbm, ⟨9, _⟩ => ⟨S8x4096x8, .f32⟩
  | .hbm, ⟨10, _⟩ => ⟨S_, .f32⟩
  | .hbm, ⟨11, _⟩ => ⟨S8x4096x8, .f32⟩
  | .hbm, ⟨12, _⟩ => ⟨S8x4096x8, .f32⟩
  | .hbm, ⟨13, _⟩ => ⟨S1x1x8, .f32⟩
  | .hbm, ⟨14, _⟩ => ⟨S8x4096x8, .f32⟩
  | .hbm, ⟨15, _⟩ => ⟨S8x4096x8, .f32⟩
  | .hbm, ⟨16, _⟩ => ⟨S8x4096x8, .f32⟩
  | .hbm, ⟨17, _⟩ => ⟨S8x4096x1024, .f32⟩
  | .hbm, ⟨18, _⟩ => ⟨S1x1x1024, .f32⟩
  | .hbm, ⟨19, _⟩ => ⟨S8x4096x1024, .f32⟩
  | .hbm, ⟨20, _⟩ => ⟨S8x4096x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_call0_cst : Ref sig .tc := ⟨.hbm, 10, rfl⟩
abbrev main_call0_v0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩

abbrev nD : Nat := 1
abbrev τ : Topo := Topo.v7x

variable {F : FTy → Type} [FloatOps F]

class Facts₀ : Prop where
  bcast_S8_S1x1x8_2 : S8.BroadcastsInDim S1x1x8 (![2] : Fin 1 → Fin S1x1x8.rank)
  bcast_S1x1x8_S8x4096x8_0_1_2 : S1x1x8.BroadcastsInDim S8x4096x8 (![0, 1, 2] : Fin 3 → Fin S8x4096x8.rank)
  bcast_S_S8x4096x8 : S_.BroadcastsInDim S8x4096x8 (![] : Fin 0 → Fin S8x4096x8.rank)
  bcast_S1024_S1x1x1024_2 : S1024.BroadcastsInDim S1x1x1024 (![2] : Fin 1 → Fin S1x1x1024.rank)
  bcast_S1x1x1024_S8x4096x1024_0_1_2 : S1x1x1024.BroadcastsInDim S8x4096x1024 (![0, 1, 2] : Fin 3 → Fin S8x4096x1024.rank)
  dot_S8x4096x1024_S8x1024_S8x4096x8_2_1_01_0_n_n_wf : DotDims.WF S8x4096x1024 S8x1024 S8x4096x8 [2] [1] [0, 1] [0] [] []
  dot_S8x4096x8_S1024x8_S8x4096x1024_2_1_01_0_n_n_wf : DotDims.WF S8x4096x8 S1024x8 S8x4096x1024 [2] [1] [0, 1] [0] [] []

variable [Facts₀]

def dot_S8x4096x1024_S8x1024_S8x4096x8_2_1_01_0_n_n : DotDims S8x4096x1024 S8x1024 S8x4096x8 where
  lhsContracting := [2]
  rhsContracting := [1]
  lhsNonContracting := [0, 1]
  rhsNonContracting := [0]
  lhsBatch := []
  rhsBatch := []
  wf := dot_S8x4096x1024_S8x1024_S8x4096x8_2_1_01_0_n_n_wf
def dot_S8x4096x8_S1024x8_S8x4096x1024_2_1_01_0_n_n : DotDims S8x4096x8 S1024x8 S8x4096x1024 where
  lhsContracting := [2]
  rhsContracting := [1]
  lhsNonContracting := [0, 1]
  rhsNonContracting := [0]
  lhsBatch := []
  rhsBatch := []
  wf := dot_S8x4096x8_S1024x8_S8x4096x1024_2_1_01_0_n_n_wf

class Facts : Prop extends Facts₀ where

variable [Facts]
-- ==== Proof.Layer.lean ====
/-
  The two-layer map that both programs compute, stated once over plain coordinates.

  From one row `xrow` of the input (1024 entries) the first linear layer forms, for each of the 8 wires `f`,
  `Σ k, xrow k · w1 f k + b1 f`; relu clamps it at zero; the wire's angle `phi f` is added and the cosine taken
  (`wire`). The second linear layer sends the 8 cosines to 1024 outputs, `Σ f, wire f · w2 e f + b2 e` (`out`).
  On the extended reals every operation here is the exact one, so the function is the same however the sums are
  tiled or the operands are laid out: what differs between the two programs is only how a row and the weight
  entries are addressed. `result` addresses them as the reference does, over the [8, 4096, 1024] input;
  `rows` as the kernel's launch does, over the [32768, 1024] row-flattened input and the transposed weights.
-/
import Idealize.ShloMosaic.PureOps.Ideal
import Idealize.ShloMosaic.Lib.ValueIdx

noncomputable section

namespace Cert.FFN

open Idealize.ShloMosaic Idealize.ShloMosaic.ValueIdx

/-- Relu's threshold: the value of the f32 zero word (the same word in both programs, never evaluated). -/
abbrev zeroW : EReal := Ideal.ofBits .f32 0x00000000#32

/-- One wire of the hidden layer from a row of the input: `cos (max (Σ k, xrow k · w1 f k + b1 f) 0 + phi f)`. -/
def wire (xrow : Fin 1024 → EReal) (w1 : Fin 8 → Fin 1024 → EReal) (b1 phi : Fin 8 → EReal) (f : Fin 8) : EReal :=
  Ideal.cos (max ((∑ k : Fin 1024, xrow k * w1 f k) + b1 f) zeroW + phi f)

/-- Output entry `e` of that row: `Σ f, wire f · w2 e f + b2 e`. -/
def out (xrow : Fin 1024 → EReal) (w1 : Fin 8 → Fin 1024 → EReal) (b1 phi : Fin 8 → EReal)
    (w2 : Fin 1024 → Fin 8 → EReal) (b2 : Fin 1024 → EReal) (e : Fin 1024) : EReal :=
  (∑ f : Fin 8, wire xrow w1 b1 phi f * w2 e f) + b2 e

/-- `out` depends on the row only through its entries. -/
theorem out_congr_row {xrow xrow' : Fin 1024 → EReal} (h : ∀ k, xrow k = xrow' k) (w1 : Fin 8 → Fin 1024 → EReal)
    (b1 phi : Fin 8 → EReal) (w2 : Fin 1024 → Fin 8 → EReal) (b2 : Fin 1024 → EReal) (e : Fin 1024) :
    out xrow w1 b1 phi w2 b2 e = out xrow' w1 b1 phi w2 b2 e := by
  rw [funext h]

/-- The result over the reference's layout: entry (b, s, e) is `out` of row (b, s) of `x`, with `W1` stored
    [wire, input] and `W2` stored [output, wire]. -/
def result (x : (⟨3, ![8, 4096, 1024]⟩ : Shape).Idx → EReal) (W1 : (⟨2, ![8, 1024]⟩ : Shape).Idx → EReal)
    (b1 phi : (⟨1, ![8]⟩ : Shape).Idx → EReal) (W2 : (⟨2, ![1024, 8]⟩ : Shape).Idx → EReal)
    (b2 : (⟨1, ![1024]⟩ : Shape).Idx → EReal) : (⟨3, ![8, 4096, 1024]⟩ : Shape).Idx → EReal := fun i =>
  out (fun k => x (ix3 (i 0) (i 1) k)) (fun f k => W1 (ix2 f k)) (fun f => b1 (ix1 f)) (fun f => phi (ix1 f))
    (fun e f => W2 (ix2 e f)) (fun e => b2 (ix1 e)) (i 2)

/-- The result over the launch's layout, for any number `R` of rows: entry (r, e) is `out` of row `r` of the
    row-flattened input, with the first weight stored [input, wire] and the second [wire, output]. -/
def rows {R : Nat} (xr : (⟨2, ![R, 1024]⟩ : Shape).Idx → EReal) (w1t : (⟨2, ![1024, 8]⟩ : Shape).Idx → EReal)
    (b1 phi : (⟨1, ![8]⟩ : Shape).Idx → EReal) (w2t : (⟨2, ![8, 1024]⟩ : Shape).Idx → EReal)
    (b2 : (⟨1, ![1024]⟩ : Shape).Idx → EReal) : (⟨2, ![R, 1024]⟩ : Shape).Idx → EReal := fun j =>
  out (fun k => xr (ix2 (j 0) k)) (fun f k => w1t (ix2 k f)) (fun f => b1 (ix1 f)) (fun f => phi (ix1 f))
    (fun e f => w2t (ix2 f e)) (fun e => b2 (ix1 e)) (j 1)

theorem rows_apply {R : Nat} (xr : (⟨2, ![R, 1024]⟩ : Shape).Idx → EReal) (w1t : (⟨2, ![1024, 8]⟩ : Shape).Idx → EReal)
    (b1 phi : (⟨1, ![8]⟩ : Shape).Idx → EReal) (w2t : (⟨2, ![8, 1024]⟩ : Shape).Idx → EReal)
    (b2 : (⟨1, ![1024]⟩ : Shape).Idx → EReal) (r : Fin R) (e : Fin 1024) :
    rows xr w1t b1 phi w2t b2 (ix2 r e)
      = out (fun k => xr (ix2 r k)) (fun f k => w1t (ix2 k f)) (fun f => b1 (ix1 f)) (fun f => phi (ix1 f))
          (fun e f => w2t (ix2 f e)) (fun e => b2 (ix1 e)) e := rfl

theorem result_apply (x : (⟨3, ![8, 4096, 1024]⟩ : Shape).Idx → EReal) (W1 : (⟨2, ![8, 1024]⟩ : Shape).Idx → EReal)
    (b1 phi : (⟨1, ![8]⟩ : Shape).Idx → EReal) (W2 : (⟨2, ![1024, 8]⟩ : Shape).Idx → EReal)
    (b2 : (⟨1, ![1024]⟩ : Shape).Idx → EReal) (b : Fin 8) (s : Fin 4096) (e : Fin 1024) :
    result x W1 b1 phi W2 b2 (ix3 b s e)
      = out (fun k => x (ix3 b s k)) (fun f k => W1 (ix2 f k)) (fun f => b1 (ix1 f)) (fun f => phi (ix1 f))
          (fun e f => W2 (ix2 e f)) (fun e => b2 (ix1 e)) e := rfl

end Cert.FFN

end
-- ==== Proof.KernelPayload.lean ====
/-
  What one grid point's body computes, entry by entry.

  The body holds a block of 2048 rows of the row-flattened input (`x0`), the first weight stored [input, wire]
  (`x1`), the two length-8 vectors (`x2`, `x3`), the second weight stored [wire, output] (`x4`) and the output
  bias (`x5`). Its one store writes `(cos (max (x0 · x1 + x2) 0 + x3)) · x4 + x5`, both products accumulated into a
  zero block. On the extended reals a product into a zero accumulator is the plain sum over the contracted axis,
  and the two bias vectors are read along the row, so entry (p, q) of the stored block is the row-wise function
  `Cert.FFN.out` of row `p` of `x0` at output `q`.
-/
import proofs.«142906_j65481071401855_1_alg».proof.Proof.Gen.KernelIdeal.Skeleton
import proofs.«142906_j65481071401855_1_alg».proof.Proof.Layer
import Idealize.ShloMosaic.Lib.Pipeline.Value
import Idealize.ShloMosaic.Lib.ValueIdx
import Idealize.ShloMosaic.PureOps.Ideal.Laws

noncomputable section

namespace Cert.KernelIdeal.Payload

open Cert.KernelIdeal Cert.KernelIdeal.Gen Cert.FFN
open Idealize.ShloMosaic Idealize.ShloMosaic.ValueIdx

/-! ## The first product: rows of the input against the [input, wire] weight -/

theorem lhs_first_0 (i : S2048x8.Idx) (q : dot_S2048x1024_S1024x8_S2048x8_1_0_0_1_n_n.contr.Idx) :
    (dot_S2048x1024_S1024x8_S2048x8_1_0_0_1_n_n.lhsIdx i q 0).val = (i 0).val := by
  unfold DotDims.lhsIdx
  rw [dif_neg (show ¬(0 : Fin S2048x1024.rank) ∈ dot_S2048x1024_S1024x8_S2048x8_1_0_0_1_n_n.lhsBatch by decide), dif_pos (show (0 : Fin S2048x1024.rank) ∈ dot_S2048x1024_S1024x8_S2048x8_1_0_0_1_n_n.lhsNonContracting by decide)]
  rfl
theorem lhs_first_1 (i : S2048x8.Idx) (q : dot_S2048x1024_S1024x8_S2048x8_1_0_0_1_n_n.contr.Idx) :
    (dot_S2048x1024_S1024x8_S2048x8_1_0_0_1_n_n.lhsIdx i q 1).val = (q ⟨0, by decide⟩).val :=
  dot_S2048x1024_S1024x8_S2048x8_1_0_0_1_n_n.lhsIdx_val_of_single rfl i q
theorem rhs_first_0 (i : S2048x8.Idx) (q : dot_S2048x1024_S1024x8_S2048x8_1_0_0_1_n_n.contr.Idx) :
    (dot_S2048x1024_S1024x8_S2048x8_1_0_0_1_n_n.rhsIdx i q 0).val = (q ⟨0, by decide⟩).val :=
  dot_S2048x1024_S1024x8_S2048x8_1_0_0_1_n_n.rhsIdx_val_of_single rfl i q
theorem rhs_first_1 (i : S2048x8.Idx) (q : dot_S2048x1024_S1024x8_S2048x8_1_0_0_1_n_n.contr.Idx) :
    (dot_S2048x1024_S1024x8_S2048x8_1_0_0_1_n_n.rhsIdx i q 1).val = (i 1).val := by
  unfold DotDims.rhsIdx
  rw [dif_neg (show ¬(1 : Fin S1024x8.rank) ∈ dot_S2048x1024_S1024x8_S2048x8_1_0_0_1_n_n.rhsBatch by decide), dif_pos (show (1 : Fin S1024x8.rank) ∈ dot_S2048x1024_S1024x8_S2048x8_1_0_0_1_n_n.rhsNonContracting by decide)]
  rfl

/-- Entry (p, f) of the first product into the zero block: `Σ k, a[p,k] · b[k,f]`. -/
theorem first_product (a : FVec Ideal S2048x1024 .f32) (b : FVec Ideal S1024x8 .f32) (p : Fin 2048) (f : Fin 8) :
    matmul dot_S2048x1024_S1024x8_S2048x8_1_0_0_1_n_n none a b (constant (F := Ideal) S2048x8 .f32 0x00000000#32) (ix2 p f)
      = ∑ k : Fin 1024, a (ix2 p k) * b (ix2 k f) := by
  simp only [matmul]
  rw [Ideal.matmul_constant_zero_apply, ← Equiv.sum_comp (contrEquiv1 dot_S2048x1024_S1024x8_S2048x8_1_0_0_1_n_n 1024 rfl rfl).symm]
  refine Finset.sum_congr rfl fun k _ => ?_
  have hk := contrEquiv1_symm_val dot_S2048x1024_S1024x8_S2048x8_1_0_0_1_n_n 1024 rfl rfl k
  have el : dot_S2048x1024_S1024x8_S2048x8_1_0_0_1_n_n.lhsIdx (ix2 p f) ((contrEquiv1 dot_S2048x1024_S1024x8_S2048x8_1_0_0_1_n_n 1024 rfl rfl).symm k) = ix2 p k := funext fun a => Fin.ext (by
    match a with
    | ⟨0, _⟩ => exact lhs_first_0 _ _
    | ⟨1, _⟩ => exact (lhs_first_1 _ _).trans hk)
  have er : dot_S2048x1024_S1024x8_S2048x8_1_0_0_1_n_n.rhsIdx (ix2 p f) ((contrEquiv1 dot_S2048x1024_S1024x8_S2048x8_1_0_0_1_n_n 1024 rfl rfl).symm k) = ix2 k f := funext fun a => Fin.ext (by
    match a with
    | ⟨0, _⟩ => exact (rhs_first_0 _ _).trans hk
    | ⟨1, _⟩ => exact rhs_first_1 _ _)
  rw [el, er]

/-! ## The second product: the eight cosines against the [wire, output] weight -/

theorem lhs_second_0 (i : S2048x1024.Idx) (q : dot_S2048x8_S8x1024_S2048x1024_1_0_0_1_n_n.contr.Idx) :
    (dot_S2048x8_S8x1024_S2048x1024_1_0_0_1_n_n.lhsIdx i q 0).val = (i 0).val := by
  unfold DotDims.lhsIdx
  rw [dif_neg (show ¬(0 : Fin S2048x8.rank) ∈ dot_S2048x8_S8x1024_S2048x1024_1_0_0_1_n_n.lhsBatch by decide), dif_pos (show (0 : Fin S2048x8.rank) ∈ dot_S2048x8_S8x1024_S2048x1024_1_0_0_1_n_n.lhsNonContracting by decide)]
  rfl
theorem lhs_second_1 (i : S2048x1024.Idx) (q : dot_S2048x8_S8x1024_S2048x1024_1_0_0_1_n_n.contr.Idx) :
    (dot_S2048x8_S8x1024_S2048x1024_1_0_0_1_n_n.lhsIdx i q 1).val = (q ⟨0, by decide⟩).val :=
  dot_S2048x8_S8x1024_S2048x1024_1_0_0_1_n_n.lhsIdx_val_of_single rfl i q
theorem rhs_second_0 (i : S2048x1024.Idx) (q : dot_S2048x8_S8x1024_S2048x1024_1_0_0_1_n_n.contr.Idx) :
    (dot_S2048x8_S8x1024_S2048x1024_1_0_0_1_n_n.rhsIdx i q 0).val = (q ⟨0, by decide⟩).val :=
  dot_S2048x8_S8x1024_S2048x1024_1_0_0_1_n_n.rhsIdx_val_of_single rfl i q
theorem rhs_second_1 (i : S2048x1024.Idx) (q : dot_S2048x8_S8x1024_S2048x1024_1_0_0_1_n_n.contr.Idx) :
    (dot_S2048x8_S8x1024_S2048x1024_1_0_0_1_n_n.rhsIdx i q 1).val = (i 1).val := by
  unfold DotDims.rhsIdx
  rw [dif_neg (show ¬(1 : Fin S8x1024.rank) ∈ dot_S2048x8_S8x1024_S2048x1024_1_0_0_1_n_n.rhsBatch by decide), dif_pos (show (1 : Fin S8x1024.rank) ∈ dot_S2048x8_S8x1024_S2048x1024_1_0_0_1_n_n.rhsNonContracting by decide)]
  rfl

/-- Entry (p, q) of the second product into the zero block: `Σ f, a[p,f] · b[f,q]`. -/
theorem second_product (a : FVec Ideal S2048x8 .f32) (b : FVec Ideal S8x1024 .f32) (p : Fin 2048) (q : Fin 1024) :
    matmul dot_S2048x8_S8x1024_S2048x1024_1_0_0_1_n_n none a b (constant (F := Ideal) S2048x1024 .f32 0x00000000#32) (ix2 p q)
      = ∑ f : Fin 8, a (ix2 p f) * b (ix2 f q) := by
  simp only [matmul]
  rw [Ideal.matmul_constant_zero_apply, ← Equiv.sum_comp (contrEquiv1 dot_S2048x8_S8x1024_S2048x1024_1_0_0_1_n_n 8 rfl rfl).symm]
  refine Finset.sum_congr rfl fun k _ => ?_
  have hk := contrEquiv1_symm_val dot_S2048x8_S8x1024_S2048x1024_1_0_0_1_n_n 8 rfl rfl k
  have el : dot_S2048x8_S8x1024_S2048x1024_1_0_0_1_n_n.lhsIdx (ix2 p q) ((contrEquiv1 dot_S2048x8_S8x1024_S2048x1024_1_0_0_1_n_n 8 rfl rfl).symm k) = ix2 p k := funext fun a => Fin.ext (by
    match a with
    | ⟨0, _⟩ => exact lhs_second_0 _ _
    | ⟨1, _⟩ => exact (lhs_second_1 _ _).trans hk)
  have er : dot_S2048x8_S8x1024_S2048x1024_1_0_0_1_n_n.rhsIdx (ix2 p q) ((contrEquiv1 dot_S2048x8_S8x1024_S2048x1024_1_0_0_1_n_n 8 rfl rfl).symm k) = ix2 k q := funext fun a => Fin.ext (by
    match a with
    | ⟨0, _⟩ => exact (rhs_second_0 _ _).trans hk
    | ⟨1, _⟩ => exact rhs_second_1 _ _)
  rw [el, er]

/-! ## The bias vectors, read along a row -/

/-- A length-8 vector viewed [1, 8] and repeated down 2048 rows reads its entry `f` at (p, f). -/
theorem wire_vector_apply (v : Vec Ideal S8 .f32) (h : S8.ShapeCasts S1x8) (h' : S1x8.Broadcasts S2048x8) (p : Fin 2048) (f : Fin 8) :
    broadcastTo S2048x8 (shapeCast S1x8 v h) h' (ix2 p f) = v (ix1 f) := by
  rw [broadcastTo_apply _ h' (ix2 p f) (ix2 (0 : Fin 1) f) (fun a => by
    match a with
    | ⟨0, _⟩ => show (0 : Nat) = if (1 : Nat) = 1 then 0 else _; rw [if_pos rfl]
    | ⟨1, _⟩ => show f.val = if (8 : Nat) = 1 then 0 else f.val; rw [if_neg (by decide)])]
  exact shapeCast_apply v h (ix2 (0 : Fin 1) f) (ix1 f) (by
    rw [Shape.rowMajor_val_one, Shape.rowMajor_val_two]; show f.val = 0 * 8 + f.val; omega)

/-- A length-1024 vector viewed [1, 1024] and repeated down 2048 rows reads its entry `q` at (p, q). -/
theorem output_vector_apply (v : Vec Ideal S1024 .f32) (h : S1024.ShapeCasts S1x1024) (h' : S1x1024.Broadcasts S2048x1024) (p : Fin 2048) (q : Fin 1024) :
    broadcastTo S2048x1024 (shapeCast S1x1024 v h) h' (ix2 p q) = v (ix1 q) := by
  rw [broadcastTo_apply _ h' (ix2 p q) (ix2 (0 : Fin 1) q) (fun a => by
    match a with
    | ⟨0, _⟩ => show (0 : Nat) = if (1 : Nat) = 1 then 0 else _; rw [if_pos rfl]
    | ⟨1, _⟩ => show q.val = if (1024 : Nat) = 1 then 0 else q.val; rw [if_neg (by decide)])]
  exact shapeCast_apply v h (ix2 (0 : Fin 1) q) (ix1 q) (by
    rw [Shape.rowMajor_val_one, Shape.rowMajor_val_two]; show q.val = 0 * 1024 + q.val; omega)

/-! ## The stored block -/

/-- Entry (p, q) of the block the body stores is `Cert.FFN.out` of row `p` of the input block at output `q`. -/
theorem payload_apply (x0 : Vec Ideal S2048x1024 .f32) (x1 : Vec Ideal S1024x8 .f32) (x2 x3 : Vec Ideal S8 .f32)
    (x4 : Vec Ideal S8x1024 .f32) (x5 : Vec Ideal S1024 .f32) (p : Fin 2048) (q : Fin 1024) :
    k0_pay1 (F := Ideal) x0 x1 x2 x3 x4 x5 (ix2 p q)
      = out (fun k => x0 (ix2 p k)) (fun f k => x1 (ix2 k f)) (fun f => x2 (ix1 f)) (fun f => x3 (ix1 f))
          (fun e f => x4 (ix2 f e)) (fun e => x5 (ix1 e)) q := by
  unfold k0_pay1 out wire
  simp only [shapeCast_self]
  rw [addf_apply, second_product, output_vector_apply]
  refine congrArg (· + x5 (ix1 q)) (Finset.sum_congr rfl fun f _ => ?_)
  refine congrArg (· * x4 (ix2 f q)) ?_
  show Ideal.cos (max (matmul dot_S2048x1024_S1024x8_S2048x8_1_0_0_1_n_n none x0 x1 (constant (F := Ideal) S2048x8 .f32 0x00000000#32) (ix2 p f)
      + broadcastTo S2048x8 (shapeCast S1x8 x2 _) _ (ix2 p f)) (Ideal.ofBits .f32 0x00000000#32)
      + broadcastTo S2048x8 (shapeCast S1x8 x3 _) _ (ix2 p f)) = _
  rw [first_product, wire_vector_apply, wire_vector_apply]

end Cert.KernelIdeal.Payload

end
-- ==== Proof.KernelBlocks.lean ====
/-
  The launch's output array after the run, as one function of the arrays the launch finds.

  The grid has 16 points; point `t` stages rows `2048·t … 2048·t + 2047` of the row-flattened input (window 0) and of
  the output (window 6), and every other operand whole (windows 1 to 5, always block 0). The body's stored block at
  entry (p, q) is `Cert.FFN.out` of row `p` of the staged input block, which is row `2048·t + p` of the whole input:
  so what point `t` writes back is block `t` of `Cert.FFN.rows` of the whole arrays. The 16 blocks tile the
  [32768, 1024] output (row `r` lies in block `r / 2048`), so the array ends at `Cert.FFN.rows`.
-/
import proofs.«142906_j65481071401855_1_alg».proof.Proof.Gen.KernelIdeal.Frame
import proofs.«142906_j65481071401855_1_alg».proof.Proof.KernelPayload

set_option maxRecDepth 16384

noncomputable section

namespace Cert.KernelIdeal.Blocks

open Cert.KernelIdeal Cert.KernelIdeal.Gen Cert.KernelIdeal.Payload Cert.FFN
open Idealize.ShloMosaic Idealize.ShloMosaic.TcCoe Idealize.ShloMosaic.ValueIdx Idealize.SL.Sem
open Idealize.ShloMosaic.Pipeline (Dat Cfg Window)

variable (m : (ℓ : Loc nD τ sig) → Buf (Elt Ideal) ℓ)

theorem zero2 : (![0, 0] : Fin 2 → Nat) = fun _ => 0 := funext fun a => by fin_cases a <;> rfl
theorem zero1 : (![0] : Fin 1 → Nat) = fun _ => 0 := funext fun a => by fin_cases a <;> rfl

/-! ## The arrays the launch finds, at their literal types -/

abbrev xrows (c : Dev nD) : Vec Ideal S32768x1024 .f32 := V m c main_v0
abbrev w1t (c : Dev nD) : Vec Ideal S1024x8 .f32 := V m c main_v1
abbrev b1v (c : Dev nD) : Vec Ideal S8 .f32 := V m c main_arg2
abbrev phiv (c : Dev nD) : Vec Ideal S8 .f32 := V m c main_arg3
abbrev w2t (c : Dev nD) : Vec Ideal S8x1024 .f32 := V m c main_v2
abbrev b2v (c : Dev nD) : Vec Ideal S1024 .f32 := V m c main_arg5

/-- The output array as one function of them. -/
abbrev regionOut (c : Dev nD) : Vec Ideal S32768x1024 .f32 :=
  rows (xrows m c) (w1t m c) (b1v m c) (phiv m c) (w2t m c) (b2v m c)

/-! ## One entry of a stored block -/

/-- If row `p` of the staged input block is row `r` of the whole input and the other staged operands are the whole
    arrays, the stored block at (p, q) is `Cert.FFN.rows` of the whole arrays at (r, q). -/
theorem stored_entry (x0 : Vec Ideal S2048x1024 .f32) (x1 : Vec Ideal S1024x8 .f32) (x2 x3 : Vec Ideal S8 .f32)
    (x4 : Vec Ideal S8x1024 .f32) (x5 : Vec Ideal S1024 .f32) (xr : Vec Ideal S32768x1024 .f32)
    (p : Fin 2048) (q : Fin 1024) (r : Fin 32768) (hrow : ∀ k : Fin 1024, x0 (ix2 p k) = xr (ix2 r k)) :
    k0_pay1 (F := Ideal) x0 x1 x2 x3 x4 x5 (ix2 p q) = rows xr x1 x2 x3 x4 x5 (ix2 r q) := by
  rw [payload_apply, rows_apply]
  exact out_congr_row hrow _ _ _ _ _ _

/-! ## The printed index maps over the grid -/

/-- Windows 0 and 6 are at block (t, 0); windows 1 to 5 always at block 0. -/
theorem index_facts : ∀ t : Fin cfg0.N,
    win0_0.index t (0 : Fin 2) = t.val ∧ win0_0.index t (1 : Fin 2) = 0
    ∧ win0_6.index t (0 : Fin 2) = t.val ∧ win0_6.index t (1 : Fin 2) = 0
    ∧ win0_1.index t (0 : Fin 2) = 0 ∧ win0_1.index t (1 : Fin 2) = 0
    ∧ win0_2.index t (0 : Fin 1) = 0 ∧ win0_3.index t (0 : Fin 1) = 0
    ∧ win0_4.index t (0 : Fin 2) = 0 ∧ win0_4.index t (1 : Fin 2) = 0
    ∧ win0_5.index t (0 : Fin 1) = 0 :=
  (by decide +kernel : ∀ t : Fin grid0.N, _)

/-! ## The staged blocks -/

/-- Row `p` of the staged input block at point `t` is row `2048·t + p` of the whole input. -/
theorem input_block_row (c : Dev nD) (t : Fin cfg0.N) (p : Fin 2048) (k : Fin 1024) (r : Fin 32768)
    (hr : r.val = t.val * 2048 + p.val) : iblk m c 0 t (ix2 p k) = xrows m c (ix2 r k) := by
  obtain ⟨e00, e01, -⟩ := index_facts t
  show V m c main_v0 (((cfg0.win 0).blk t).view.emb (ix2 p k)) = V m c main_v0 (ix2 r k)
  refine congrArg (V m c main_v0) (funext fun a => Fin.ext ?_)
  match a with
  | ⟨0, _⟩ => show win0_0.index t (0 : Fin 2) * 2048 + 1 * p.val = r.val; omega
  | ⟨1, _⟩ => show win0_0.index t (1 : Fin 2) * 1024 + 1 * k.val = k.val; omega

/-- Entry (p, q) of the output block at point `t` sits at (2048·t + p, q) of the output array. -/
theorem output_block_entry (t : Fin cfg0.N) (p : Fin 2048) (q : Fin 1024) (r : Fin 32768)
    (hr : r.val = t.val * 2048 + p.val) : ((cfg0.win 6).blk t).view.emb (ix2 p q) = ix2 r q := by
  obtain ⟨-, -, e60, e61, -⟩ := index_facts t
  refine funext fun a => Fin.ext ?_
  match a with
  | ⟨0, _⟩ => show win0_6.index t (0 : Fin 2) * 2048 + 1 * p.val = r.val; omega
  | ⟨1, _⟩ => show win0_6.index t (1 : Fin 2) * 1024 + 1 * q.val = q.val; omega

theorem w1_block (c : Dev nD) (t : Fin cfg0.N) : iblk m c 1 t = w1t m c := by
  obtain ⟨-, -, -, -, e0, e1, -⟩ := index_facts t
  funext y
  show V m c main_v1 (((cfg0.win 1).blk t).view.emb y) = V m c main_v1 y
  refine congrArg (V m c main_v1) (funext fun a => Fin.ext ?_)
  match a with
  | ⟨0, _⟩ => show win0_1.index t (0 : Fin 2) * 1024 + 1 * (y 0).val = (y 0).val; omega
  | ⟨1, _⟩ => show win0_1.index t (1 : Fin 2) * 8 + 1 * (y 1).val = (y 1).val; omega

theorem b1_block (c : Dev nD) (t : Fin cfg0.N) : iblk m c 2 t = b1v m c := by
  obtain ⟨-, -, -, -, -, -, e0, -⟩ := index_facts t
  funext y
  show V m c main_arg2 (((cfg0.win 2).blk t).view.emb y) = V m c main_arg2 y
  refine congrArg (V m c main_arg2) (funext fun a => Fin.ext ?_)
  match a with
  | ⟨0, _⟩ => show win0_2.index t (0 : Fin 1) * 8 + 1 * (y 0).val = (y 0).val; omega

theorem phi_block (c : Dev nD) (t : Fin cfg0.N) : iblk m c 3 t = phiv m c := by
  obtain ⟨-, -, -, -, -, -, -, e0, -⟩ := index_facts t
  funext y
  show V m c main_arg3 (((cfg0.win 3).blk t).view.emb y) = V m c main_arg3 y
  refine congrArg (V m c main_arg3) (funext fun a => Fin.ext ?_)
  match a with
  | ⟨0, _⟩ => show win0_3.index t (0 : Fin 1) * 8 + 1 * (y 0).val = (y 0).val; omega

theorem w2_block (c : Dev nD) (t : Fin cfg0.N) : iblk m c 4 t = w2t m c := by
  obtain ⟨-, -, -, -, -, -, -, -, e0, e1, -⟩ := index_facts t
  funext y
  show V m c main_v2 (((cfg0.win 4).blk t).view.emb y) = V m c main_v2 y
  refine congrArg (V m c main_v2) (funext fun a => Fin.ext ?_)
  match a with
  | ⟨0, _⟩ => show win0_4.index t (0 : Fin 2) * 8 + 1 * (y 0).val = (y 0).val; omega
  | ⟨1, _⟩ => show win0_4.index t (1 : Fin 2) * 1024 + 1 * (y 1).val = (y 1).val; omega

theorem b2_block (c : Dev nD) (t : Fin cfg0.N) : iblk m c 5 t = b2v m c := by
  obtain ⟨-, -, -, -, -, -, -, -, -, -, e0⟩ := index_facts t
  funext y
  show V m c main_arg5 (((cfg0.win 5).blk t).view.emb y) = V m c main_arg5 y
  refine congrArg (V m c main_arg5) (funext fun a => Fin.ext ?_)
  match a with
  | ⟨0, _⟩ => show win0_5.index t (0 : Fin 1) * 1024 + 1 * (y 0).val = (y 0).val; omega

/-! ## What a point writes back -/

/-- Point `t` writes back block `t` of `regionOut`. -/
theorem flushed_eq (c : Dev nD) (t : Fin cfg0.N) :
    (dats m 0 c).flushed 6 t = ((cfg0.win 6).blk t).view.read (Elt Ideal) (regionOut m c) := by
  show (cfg0.win 6).cut (grid0.coords t) ((dats m 0 c).after 6 t) = _
  rw [after0_6]
  unfold out0_6
  rw [View.canon_unit_zero zero2]
  simp only [View.ld_unit_zero (S := S2048x1024) zero2, View.ld_unit_zero (S := S1024x8) zero2,
    View.ld_unit_zero (S := S8) zero1, View.ld_unit_zero (S := S8x1024) zero2, View.ld_unit_zero (S := S1024) zero1]
  rw [w1_block, b1_block, phi_block, w2_block, b2_block]
  funext y
  obtain ⟨p, q, rfl⟩ : ∃ (p : Fin 2048) (q : Fin 1024), y = ix2 p q := ⟨y 0, y 1, eq_ix2 y⟩
  have hN : t.val < 16 := by have := t.isLt; have hN : cfg0.N = 16 := N_0; omega
  have hp : p.val < 2048 := p.isLt
  let r : Fin 32768 := ⟨t.val * 2048 + p.val, by omega⟩
  show k0_pay1 (F := Ideal) (iblk m c 0 t) (w1t m c) (b1v m c) (phiv m c) (w2t m c) (b2v m c) (ix2 p q)
    = rows (xrows m c) (w1t m c) (b1v m c) (phiv m c) (w2t m c) (b2v m c) (((cfg0.win 6).blk t).view.emb (ix2 p q))
  rw [output_block_entry t p q r rfl]
  exact stored_entry (iblk m c 0 t) (w1t m c) (b1v m c) (phiv m c) (w2t m c) (b2v m c) (xrows m c) p q r
    (fun k => input_block_row m c t p k r rfl)

/-! ## The cover -/

/-- An index of the output is in point `t`'s block iff each coordinate is in the block's range on its axis. -/
theorem mem_block (t : Fin cfg0.N) (i : S32768x1024.Idx) :
    i ∈ ((cfg0.win 6).blk t).view.set ↔ ∀ a : Fin 2, win0_6.index t a * S2048x1024.size a ≤ (i a).val ∧ (i a).val < win0_6.index t a * S2048x1024.size a + S2048x1024.size a := by
  show i ∈ ((View.whole main_v3).slice (win0_6.rect t)).set ↔ _
  rw [View.set_slice_whole, Rect.mem_set_unit]
  exact Iff.rfl

/-- Every row is some point's: row `r` lies in block `r / 2048`. -/
theorem covered (i : S32768x1024.Idx) :
    ∃ t : Fin cfg0.N, (cfg0.win 6).flush t = true ∧ i ∈ ((cfg0.win 6).blk t).view.set := by
  have hi0 : (i 0).val < 32768 := (i 0).isLt
  have hi1 : (i 1).val < 1024 := (i 1).isLt
  have hN : grid0.N = 16 := N_0
  let t : Fin cfg0.N := ⟨(i 0).val / 2048, by show (i 0).val / 2048 < grid0.N; omega⟩
  obtain ⟨-, -, e60, e61, -⟩ := index_facts t
  have ht : t.val = (i 0).val / 2048 := rfl
  refine ⟨t, flush0_6 t, ?_⟩
  rw [mem_block]
  intro a
  match a with
  | ⟨0, _⟩ => show win0_6.index t (0 : Fin 2) * 2048 ≤ (i 0).val ∧ (i 0).val < win0_6.index t (0 : Fin 2) * 2048 + 2048; omega
  | ⟨1, _⟩ => show win0_6.index t (1 : Fin 2) * 1024 ≤ (i 1).val ∧ (i 1).val < win0_6.index t (1 : Fin 2) * 1024 + 1024; omega

/-! ## The array after the run -/

theorem final (c : Dev nD) : (dats m 0 c).arrAt 6 cfg0.N = regionOut m c :=
  (dats m 0 c).arrAt_eq_of_cover 6 (regionOut m c) (fun t _ => flushed_eq m c t) covered

end Cert.KernelIdeal.Blocks

end
-- ==== Proof.Layout.lean ====
/-
  The launch's layout against the reference's.

  The kernel's entry point flattens the [8, 4096, 1024] input row-major to [32768, 1024] (row `4096·b + s` is row
  (b, s)), transposes the two weights, launches, and restores the output's [8, 4096, 1024] shape. Read at
  coordinates: the flattened input at (4096·b + s, k) is `x[b, s, k]`; the transposed `W1` at (k, f) is `W1[f, k]`;
  the transposed `W2` at (f, e) is `W2[e, f]`; and the restored output at (b, s, e) is the launch's output at
  (4096·b + s, e). Hence `Cert.FFN.rows` over the launch's layout, restored, is `Cert.FFN.result`.
-/
import proofs.«142906_j65481071401855_1_alg».proof.Proof.Layer
import Idealize.ShloMosaic.Lib.Pipeline.Value
import Idealize.ShloMosaic.Lib.ValueIdx

noncomputable section

namespace Cert.FFN

open Idealize.ShloMosaic Idealize.ShloMosaic.ValueIdx

/-- The row-flattened input at (4096·b + s, k) is `x[b, s, k]`. -/
theorem flatten_apply (x : (⟨3, ![8, 4096, 1024]⟩ : Shape).Idx → EReal)
    (h : (⟨3, ![8, 4096, 1024]⟩ : Shape).ShapeCasts ⟨2, ![32768, 1024]⟩)
    (b : Fin 8) (s : Fin 4096) (k : Fin 1024) (r : Fin 32768) (hr : r.val = b.val * 4096 + s.val) :
    shapeCast ⟨2, ![32768, 1024]⟩ x h (ix2 r k) = x (ix3 b s k) :=
  shapeCast_apply x h (ix2 r k) (ix3 b s k) (by
    rw [Shape.rowMajor_val_three, Shape.rowMajor_val_two]
    show (b.val * 4096 + s.val) * 1024 + k.val = r.val * 1024 + k.val
    rw [hr])

/-- The restored output at (b, s, e) is the launch's output at (4096·b + s, e). -/
theorem restore_apply (o : (⟨2, ![32768, 1024]⟩ : Shape).Idx → EReal)
    (h : (⟨2, ![32768, 1024]⟩ : Shape).ShapeCasts ⟨3, ![8, 4096, 1024]⟩)
    (b : Fin 8) (s : Fin 4096) (e : Fin 1024) (r : Fin 32768) (hr : r.val = b.val * 4096 + s.val) :
    shapeCast ⟨3, ![8, 4096, 1024]⟩ o h (ix3 b s e) = o (ix2 r e) :=
  shapeCast_apply o h (ix3 b s e) (ix2 r e) (by
    rw [Shape.rowMajor_val_three, Shape.rowMajor_val_two]
    show r.val * 1024 + e.val = (b.val * 4096 + s.val) * 1024 + e.val
    rw [hr])

/-- The transposed first weight at (k, f) is `W1[f, k]`. -/
theorem first_weight_apply (W1 : (⟨2, ![8, 1024]⟩ : Shape).Idx → EReal)
    (h : (⟨2, ![8, 1024]⟩ : Shape).Transposes [1, 0] ⟨2, ![1024, 8]⟩) (k : Fin 1024) (f : Fin 8) :
    transpose ⟨2, ![1024, 8]⟩ [1, 0] W1 h (ix2 k f) = W1 (ix2 f k) :=
  transpose_apply [1, 0] W1 h (ix2 k f) (ix2 f k) (fun a => by match a with | ⟨0, _⟩ => rfl | ⟨1, _⟩ => rfl)

/-- The transposed second weight at (f, e) is `W2[e, f]`. -/
theorem second_weight_apply (W2 : (⟨2, ![1024, 8]⟩ : Shape).Idx → EReal)
    (h : (⟨2, ![1024, 8]⟩ : Shape).Transposes [1, 0] ⟨2, ![8, 1024]⟩) (f : Fin 8) (e : Fin 1024) :
    transpose ⟨2, ![8, 1024]⟩ [1, 0] W2 h (ix2 f e) = W2 (ix2 e f) :=
  transpose_apply [1, 0] W2 h (ix2 f e) (ix2 e f) (fun a => by match a with | ⟨0, _⟩ => rfl | ⟨1, _⟩ => rfl)

/-- `rows` of the flattened input and the transposed weights, restored to [8, 4096, 1024], is `result`. -/
theorem restored_rows_eq (x : (⟨3, ![8, 4096, 1024]⟩ : Shape).Idx → EReal) (W1 : (⟨2, ![8, 1024]⟩ : Shape).Idx → EReal)
    (b1 phi : (⟨1, ![8]⟩ : Shape).Idx → EReal) (W2 : (⟨2, ![1024, 8]⟩ : Shape).Idx → EReal)
    (b2 : (⟨1, ![1024]⟩ : Shape).Idx → EReal)
    (hx : (⟨3, ![8, 4096, 1024]⟩ : Shape).ShapeCasts ⟨2, ![32768, 1024]⟩)
    (h1 : (⟨2, ![8, 1024]⟩ : Shape).Transposes [1, 0] ⟨2, ![1024, 8]⟩)
    (h2 : (⟨2, ![1024, 8]⟩ : Shape).Transposes [1, 0] ⟨2, ![8, 1024]⟩)
    (ho : (⟨2, ![32768, 1024]⟩ : Shape).ShapeCasts ⟨3, ![8, 4096, 1024]⟩) :
    shapeCast ⟨3, ![8, 4096, 1024]⟩
        (rows (shapeCast ⟨2, ![32768, 1024]⟩ x hx) (transpose ⟨2, ![1024, 8]⟩ [1, 0] W1 h1) b1 phi
          (transpose ⟨2, ![8, 1024]⟩ [1, 0] W2 h2) b2) ho
      = result x W1 b1 phi W2 b2 := by
  funext i
  obtain ⟨b, s, e, rfl⟩ : ∃ (b : Fin 8) (s : Fin 4096) (e : Fin 1024), i = ix3 b s e := ⟨i 0, i 1, i 2, eq_ix3 i⟩
  have hb : b.val < 8 := b.isLt
  have hs : s.val < 4096 := s.isLt
  let r : Fin 32768 := ⟨b.val * 4096 + s.val, by omega⟩
  rw [restore_apply _ ho b s e r rfl, rows_apply, result_apply]
  have e0 : (fun k => shapeCast ⟨2, ![32768, 1024]⟩ x hx (ix2 r k)) = fun k => x (ix3 b s k) :=
    funext fun k => flatten_apply x hx b s k r rfl
  have e1 : (fun f k => transpose ⟨2, ![1024, 8]⟩ [1, 0] W1 h1 (ix2 k f)) = fun f k => W1 (ix2 f k) :=
    funext fun f => funext fun k => first_weight_apply W1 h1 k f
  have e2 : (fun e f => transpose ⟨2, ![8, 1024]⟩ [1, 0] W2 h2 (ix2 f e)) = fun e f => W2 (ix2 e f) :=
    funext fun e => funext fun f => second_weight_apply W2 h2 f e
  rw [e0, e1, e2]

end Cert.FFN

end
-- ==== Proof.KernelRun.lean ====
/-
  The kernel program's run: its result array is `Cert.FFN.result` of the arguments.

  Before the launch the entry point flattens the input and transposes the two weights; the launch leaves its output
  array at `Cert.FFN.rows` of those (the blocks module); after the launch one line restores the [8, 4096, 1024]
  shape. Reading the three lines before and the one after as values, and joining the two layouts (the layout module),
  the result buffer ends at `Cert.FFN.result` of the six argument arrays, which end unchanged.
-/
import proofs.«142906_j65481071401855_1_alg».proof.Proof.KernelBlocks
import proofs.«142906_j65481071401855_1_alg».proof.Proof.Layout
import Idealize.ShloMosaic.Lib.StableHlo.Run

set_option maxRecDepth 16384

noncomputable section

namespace Cert.KernelIdeal.KernelValue

open Cert.KernelIdeal Cert.KernelIdeal.Gen Cert.KernelIdeal.Blocks Cert.FFN
open Idealize.ShloMosaic Idealize.ShloMosaic.TcCoe Idealize.ShloMosaic.ValueIdx Idealize.SL.Sem Idealize.ShloMosaic.StableHlo
open Idealize.ShloMosaic.Pipeline (Dat Cfg Window)

variable (m : (ℓ : Loc nD τ sig) → Buf (Elt Ideal) ℓ) (ρ : Dev nD → PrngReg)

/-! ## The lines before the launch -/

/-- The launch's first operand is the row-flattened input. -/
theorem xrows_eq (c : Dev nD) :
    xrows m c = shapeCast S32768x1024 (m ((c : Thread nD τ).loc main_arg0)) shapeCasts_S8x4096x1024_S32768x1024 := by
  show StableHlo.after hostOps0 (fun b => m (c, b)) (Proc.devRef .tc main_v0) = _
  after_results; rfl

/-- Its second operand is the transposed first weight. -/
theorem w1t_eq (c : Dev nD) :
    w1t m c = transpose S1024x8 [1, 0] (m ((c : Thread nD τ).loc main_arg1)) transposes_S8x1024_S1024x8_1_0 := by
  show StableHlo.after hostOps0 (fun b => m (c, b)) (Proc.devRef .tc main_v1) = _
  after_results

/-- Its fifth operand is the transposed second weight. -/
theorem w2t_eq (c : Dev nD) :
    w2t m c = transpose S8x1024 [1, 0] (m ((c : Thread nD τ).loc main_arg4)) transposes_S1024x8_S8x1024_1_0 := by
  show StableHlo.after hostOps0 (fun b => m (c, b)) (Proc.devRef .tc main_v2) = _
  after_results

/-! ## The line after the launch -/

/-- The result buffer is the launch's output array restored to [8, 4096, 1024]. -/
theorem tail_eq (c : Dev nD) :
    Pipeline.afterTail₀ cfgs (dats m) 0 (V0 m) [hostOps1] c main_v4
      = shapeCast S8x4096x1024 ((dats m 0 c).arrAt 6 cfg0.N) shapeCasts_S32768x1024_S8x4096x1024 := by
  unfold Pipeline.afterTail₀
  show StableHlo.after hostOps1 _ (Proc.devRef .tc main_v4) = _
  after_results
  have e : Pipeline.withArrays (cfgs 0).spec c (V0 m c) (fun w => (dats m 0 c).arrAt w (cfgs 0).N) (Proc.devRef .tc main_v3)
      = (dats m 0 c).arrAt 6 cfg0.N :=
    Pipeline.withArrays_arr spec0 launch0.win.arr_inj c (V0 m c) (fun w => (dats m 0 c).arrAt w cfg0.N) 6
  rw [e]
  rfl

/-! ## The run -/

/-- The result buffer, as a value: `Cert.FFN.result` of the argument arrays. -/
theorem result_eq (c : Dev nD) :
    Pipeline.afterTail₀ cfgs (dats m) 0 (V0 m) [hostOps1] c main_v4
      = result (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) := by
  rw [tail_eq, final]
  show shapeCast S8x4096x1024 (rows (xrows m c) (w1t m c) (V m c main_arg2) (V m c main_arg3) (w2t m c) (V m c main_arg5)) _ = _
  rw [xrows_eq, w1t_eq, w2t_eq, V_main_arg2, V_main_arg3, V_main_arg5]
  exact restored_rows_eq _ _ _ _ _ _ _ _ _ _

/-- Every weakly fair execution of the kernel program terminates with the result buffer at `Cert.FFN.result` of the
    arguments and the arguments unchanged. -/
theorem run : θ_run defs (onTc (τ := τ) (main (F := Ideal))) ⟨m, fun _ => 0, ρ⟩ fun r => ∀ c : Dev nD,
      r.2.mem ((c.tc : Thread nD τ).loc main_v4)
        = result (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
    ⟨((h c).2 main_v4 (Pipeline.mem_restRefs_of main_v4 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).2 main_arg4 (Pipeline.mem_restRefs_of main_arg4 (by decide) (by decide))).trans (W_main_arg4 m (dats m) c),
      ((h c).1 5).trans (((dats m 0 c).arrAt_in 5 rfl _).trans ((A_eq m c 5).trans (V_main_arg5 m c)))⟩)
    (run_main m ρ)

end Cert.KernelIdeal.KernelValue

end
-- ==== Proof.ReferenceValue.lean ====
/-
  The reference's result is `Cert.FFN.result` of its arguments.

  The reference contracts `x` [8, 4096, 1024] with `W1` [8, 1024] over the input axis, adds `b1` along the wire axis,
  clamps at zero, adds `phi`, takes the cosine, contracts with `W2` [1024, 8] over the wire axis and adds `b2`.
  Read at an entry (b, s, e), operation by operation, this is `Σ f, cos (max (Σ k, x[b,s,k]·W1[f,k] + b1[f]) 0 + phi[f])
  · W2[e,f] + b2[e]`: the row-wise function `Cert.FFN.out` of row (b, s). The only work is naming the operand
  indices of the two contractions and of the broadcasts by their coordinates.
-/
import proofs.«142906_j65481071401855_1_alg».proof.Proof.Gen.ReferenceIdeal.Read
import proofs.«142906_j65481071401855_1_alg».proof.Proof.Layer

noncomputable section

namespace Cert.ReferenceIdeal.RefValue

open Cert.ReferenceIdeal Cert.ReferenceIdeal.Read Cert.FFN
open Idealize.ShloMosaic Idealize.ShloMosaic.ValueIdx

/-- Row (b, s) of `x` at input `k`: the first contraction's left operand index at wire `f`. -/
theorem lidx_first (b : Fin 8) (s : Fin 4096) (e : Fin 1024) (f : Fin 8) (k : Fin 1024) :
    lidx_main_v0 (lidx_main_v9 (ix3 b s e) f) k = ix3 b s k :=
  funext fun a => Fin.ext (by match a with | ⟨0, _⟩ => rfl | ⟨1, _⟩ => rfl | ⟨2, _⟩ => rfl)

/-- `W1` at (f, k): the first contraction's right operand index. -/
theorem ridx_first (b : Fin 8) (s : Fin 4096) (e : Fin 1024) (f : Fin 8) (k : Fin 1024) :
    ridx_main_v0 (lidx_main_v9 (ix3 b s e) f) k = ix2 f k :=
  funext fun a => Fin.ext (by match a with | ⟨0, _⟩ => rfl | ⟨1, _⟩ => rfl)

/-- `b1` at wire `f`. -/
theorem idx_b1 (b : Fin 8) (s : Fin 4096) (e : Fin 1024) (f : Fin 8) :
    idx_main_v1 (idx_main_v2 (lidx_main_v9 (ix3 b s e) f)) = ix1 f :=
  funext fun a => Fin.ext (by match a with | ⟨0, _⟩ => rfl)

/-- `phi` at wire `f`. -/
theorem idx_phi (b : Fin 8) (s : Fin 4096) (e : Fin 1024) (f : Fin 8) :
    idx_main_v5 (idx_main_v6 (lidx_main_v9 (ix3 b s e) f)) = ix1 f :=
  funext fun a => Fin.ext (by match a with | ⟨0, _⟩ => rfl)

/-- `W2` at (e, f): the second contraction's right operand index. -/
theorem ridx_second (b : Fin 8) (s : Fin 4096) (e : Fin 1024) (f : Fin 8) :
    ridx_main_v9 (ix3 b s e) f = ix2 e f :=
  funext fun a => Fin.ext (by match a with | ⟨0, _⟩ => rfl | ⟨1, _⟩ => rfl)

/-- `b2` at output `e`. -/
theorem idx_b2 (b : Fin 8) (s : Fin 4096) (e : Fin 1024) :
    idx_main_v10 (idx_main_v11 (ix3 b s e)) = ix1 e :=
  funext fun a => Fin.ext (by match a with | ⟨0, _⟩ => rfl)

/-- The reference's last stage is `Cert.FFN.result` of the arguments. -/
theorem reference_eq (x0 : (⟨S8x4096x1024, .f32⟩ : BufTy).Contents (Elt Ideal)) (x1 : (⟨S8x1024, .f32⟩ : BufTy).Contents (Elt Ideal))
    (x2 x3 : (⟨S8, .f32⟩ : BufTy).Contents (Elt Ideal)) (x4 : (⟨S1024x8, .f32⟩ : BufTy).Contents (Elt Ideal))
    (x5 : (⟨S1024, .f32⟩ : BufTy).Contents (Elt Ideal)) :
    val_main_v12 (F := Ideal) x0 x1 x2 x3 x4 x5 = result x0 x1 x2 x3 x4 x5 := by
  funext i
  obtain ⟨b, s, e, rfl⟩ : ∃ (b : Fin 8) (s : Fin 4096) (e : Fin 1024), i = ix3 b s e := ⟨i 0, i 1, i 2, eq_ix3 i⟩
  rw [result_apply, val_main_v12_apply, val_main_v9_apply, val_main_v11_apply, val_main_v10_apply, idx_b2]
  unfold out wire
  simp only [val_main_v8_apply, val_main_v7_apply, val_main_v4_apply, val_main_v3_apply, val_main_v0_apply,
    val_main_v2_apply, val_main_v1_apply, val_main_v6_apply, val_main_v5_apply, val_main_call0_v0_apply,
    val_main_call0_cst_apply, lidx_first, ridx_first, idx_b1, idx_phi, ridx_second,
    Ideal.addf_def, Ideal.maximumf_def, Ideal.hostUnary_cos_def, Ideal.ofBits_def]

end Cert.ReferenceIdeal.RefValue

end
-- ==== Proof.lean ====
/-
  The feed-forward block `cos (relu (x · W1ᵀ + b1) + phi) · W2ᵀ + b2` over x : [8, 4096, 1024], eight hidden wires:
  the tiled kernel against the einsum reference, equal on the extended reals.

  Both programs compute, for every row (b, s) of `x` and every output `e`,
  `Σ f, cos (max (Σ k, x[b,s,k] · W1[f,k] + b1[f]) 0 + phi[f]) · W2[e,f] + b2[e]` (`Cert.FFN.result`, Proof/Layer.lean).
  The reference does it with two contractions over the [8, 4096, ·] arrays (Proof/ReferenceValue.lean). The kernel
  flattens the rows to [32768, 1024], transposes the weights, and runs a 16-point grid whose point `t` handles rows
  `2048·t … 2048·t + 2047`: each point's two products accumulate into zero blocks, so on the extended reals they are the
  plain sums (Proof/KernelPayload.lean); the 16 written blocks tile the output (Proof/KernelBlocks.lean); and the
  flattening and the transposes only rename coordinates (Proof/Layout.lean, Proof/KernelRun.lean). No law beyond
  re-indexing finite sums is used, so the finiteness of the inputs is never opened. The three frames are the
  kernel's generated frame at both instances and the reference's run; the idealization rewrote nothing.
-/
import proofs.«142906_j65481071401855_1_alg».proof.Defs
import proofs.«142906_j65481071401855_1_alg».proof.Proof.Gen.Kernel
import proofs.«142906_j65481071401855_1_alg».proof.Proof.Gen.Kernel.Skeleton
import proofs.«142906_j65481071401855_1_alg».proof.Proof.Gen.Kernel.Launch
import proofs.«142906_j65481071401855_1_alg».proof.Proof.Gen.Kernel.Points
import proofs.«142906_j65481071401855_1_alg».proof.Proof.Gen.Kernel.Frame
import proofs.«142906_j65481071401855_1_alg».proof.Proof.Gen.KernelIdeal
import proofs.«142906_j65481071401855_1_alg».proof.Proof.Gen.KernelIdeal.Skeleton
import proofs.«142906_j65481071401855_1_alg».proof.Proof.Gen.KernelIdeal.Launch
import proofs.«142906_j65481071401855_1_alg».proof.Proof.Gen.KernelIdeal.Points
import proofs.«142906_j65481071401855_1_alg».proof.Proof.Gen.KernelIdeal.Frame
import proofs.«142906_j65481071401855_1_alg».proof.Proof.Gen.ReferenceIdeal
import proofs.«142906_j65481071401855_1_alg».proof.Proof.Gen.ReferenceIdeal.Run
import proofs.«142906_j65481071401855_1_alg».proof.Proof.Gen.ReferenceIdeal.Read
import proofs.«142906_j65481071401855_1_alg».proof.Proof.Gen.Pre_finite_inputs
import proofs.«142906_j65481071401855_1_alg».proof.Proof.KernelRun
import proofs.«142906_j65481071401855_1_alg».proof.Proof.ReferenceValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference has no launch: its frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories agreeing on the six arguments both programs end with the result at `Cert.FFN.result` of them. -/
theorem algebraic : Cert.algebraic_KernelIdeal_ReferenceIdeal := by
  intro m ρ m' ρ' _ hagree
  refine ⟨_, Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v12_eq, Cert.ReferenceIdeal.RefValue.reference_eq,
    (hagree c).1, (hagree c).2.1, (hagree c).2.2.1, (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
